-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128 .f32) (main_arg3 : FVec F S128x64 .f32) (main_arg4 : FVec F S64 .f32) (main_arg5 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S10000x128 : Shape := ⟨2, ![10000, 128]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S10000x64 : Shape := ⟨2, ![10000, 64]⟩
abbrev S1600000x64 : Shape := ⟨2, ![1600000, 64]⟩
abbrev S1x64 : Shape := ⟨2, ![1, 64]⟩

abbrev nBuf : Space → Nat
  | .hbm => 106
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S2x1600000, .i32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000x128, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S1600000x1, .f32⟩
  | .hbm, ⟨50, _⟩ => ⟨S1600000x128, .f32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x64, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000, .f32⟩
  | .hbm, ⟨82, _⟩ => ⟨S1600000, .f32⟩
  | .hbm, ⟨83, _⟩ => ⟨S_, .i32⟩
  | .hbm, ⟨84, _⟩ => ⟨S1600000, .i32⟩
  | .hbm, ⟨85, _⟩ => ⟨S1600000, .i1⟩
  | .hbm, ⟨86, _⟩ => ⟨S_, .i32⟩
  | .hbm, ⟨87, _⟩ => ⟨S1600000, .i32⟩
  | .hbm, ⟨88, _⟩ => ⟨S1600000, .i32⟩
  | .hbm, ⟨89, _⟩ => ⟨S1600000, .i32⟩
  | .hbm, ⟨90, _⟩ => ⟨S1600000x1, .i32⟩
  | .hbm, ⟨91, _⟩ => ⟨S1600000x64, .f32⟩
  | .hbm, ⟨92, _⟩ => ⟨S1600000x1, .f32⟩
  | .hbm, ⟨93, _⟩ => ⟨S1600000x64, .f32⟩
  | .hbm, ⟨94, _⟩ => ⟨S1600000x64, .f32⟩
  | .hbm, ⟨95, _⟩ => ⟨S_, .f32⟩
  | .hbm, ⟨96, _⟩ => ⟨S100000x64, .f32⟩
  | .hbm, ⟨97, _⟩ => ⟨S1600000x1, .i32⟩
  | .hbm, ⟨98, _⟩ => ⟨S100000x64, .f32⟩
  | .hbm, ⟨99, _⟩ => ⟨S100000, .f32⟩
  | .hbm, ⟨100, _⟩ => ⟨S100000x1, .f32⟩
  | .hbm, ⟨101, _⟩ => ⟨S100000x64, .f32⟩
  | .hbm, ⟨102, _⟩ => ⟨S100000x64, .f32⟩
  | .hbm, ⟨103, _⟩ => ⟨S100000x64, .f32⟩
  | .hbm, ⟨104, _⟩ => ⟨S1x64, .f32⟩
  | .hbm, ⟨105, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c_8 : Ref sig .tc := ⟨.hbm, 64, rfl⟩
abbrev main_v48 : Ref sig .tc := ⟨.hbm, 65, rfl⟩
abbrev main_v49 : Ref sig .tc := ⟨.hbm, 66, rfl⟩
abbrev main_c_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_c_10 : Ref sig .tc := ⟨.hbm, 73, rfl⟩
abbrev main_v55 : Ref sig .tc := ⟨.hbm, 74, rfl⟩
abbrev main_v56 : Ref sig .tc := ⟨.hbm, 75, rfl⟩
abbrev main_c_11 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_c_12 : Ref sig .tc := ⟨.hbm, 83, rfl⟩
abbrev main_v63 : Ref sig .tc := ⟨.hbm, 84, rfl⟩
abbrev main_v64 : Ref sig .tc := ⟨.hbm, 85, rfl⟩
abbrev main_c_13 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_14 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1600000x1_S1600000_n_0_0_1_wf : ScatterDims.WF S100000 S1600000x1 S1600000 [] [0] [0] 1
  dot_S10000x128_S128x128_S10000x128_1_0_0_1_n_n_wf : DotDims.WF S10000x128 S128x128 S10000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v80) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v81) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v82) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 111
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S2x1600000, .i32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000x128, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S1600000x1, .f32⟩
  | .hbm, ⟨50, _⟩ => ⟨S1600000x128, .f32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S100000x64, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000, .f32⟩
  | .hbm, ⟨77, _⟩ => ⟨S_, .i32⟩
  | .hbm, ⟨78, _⟩ => ⟨S1600000, .i32⟩
  | .hbm, ⟨79, _⟩ => ⟨S1600000, .i1⟩
  | .hbm, ⟨80, _⟩ => ⟨S_, .i32⟩
  | .hbm, ⟨81, _⟩ => ⟨S1600000, .i32⟩
  | .hbm, ⟨82, _⟩ => ⟨S1600000, .i32⟩
  | .hbm, ⟨83, _⟩ => ⟨S1600000, .i32⟩
  | .hbm, ⟨84, _⟩ => ⟨S1600000x1, .i32⟩
  | .hbm, ⟨85, _⟩ => ⟨S1600000, .f32⟩
  | .hbm, ⟨86, _⟩ => ⟨S1600000, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000x64, .f32⟩
  | .hbm, ⟨96, _⟩ => ⟨S1600000x1, .f32⟩
  | .hbm, ⟨97, _⟩ => ⟨S1600000x64, .f32⟩
  | .hbm, ⟨98, _⟩ => ⟨S1600000x64, .f32⟩
  | .hbm, ⟨99, _⟩ => ⟨S_, .f32⟩
  | .hbm, ⟨100, _⟩ => ⟨S100000x64, .f32⟩
  | .hbm, ⟨101, _⟩ => ⟨S1600000x1, .i32⟩
  | .hbm, ⟨102, _⟩ => ⟨S100000x64, .f32⟩
  | .hbm, ⟨103, _⟩ => ⟨S100000, .f32⟩
  | .hbm, ⟨104, _⟩ => ⟨S100000x1, .f32⟩
  | .hbm, ⟨105, _⟩ => ⟨S100000x64, .f32⟩
  | .hbm, ⟨106, _⟩ => ⟨S100000x64, .f32⟩
  | .hbm, ⟨107, _⟩ => ⟨S100000x64, .f32⟩
  | .hbm, ⟨108, _⟩ => ⟨S1x64, .f32⟩
  | .hbm, ⟨109, _⟩ => ⟨S100000x64, .f32⟩
  | .hbm, ⟨110, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_c_8 : Ref sig .tc := ⟨.hbm, 68, rfl⟩
abbrev main_v50 : Ref sig .tc := ⟨.hbm, 69, rfl⟩
abbrev main_v51 : Ref sig .tc := ⟨.hbm, 70, rfl⟩
abbrev main_c_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_10 : Ref sig .tc := ⟨.hbm, 77, rfl⟩
abbrev main_v57 : Ref sig .tc := ⟨.hbm, 78, rfl⟩
abbrev main_v58 : Ref sig .tc := ⟨.hbm, 79, rfl⟩
abbrev main_c_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_c_12 : Ref sig .tc := ⟨.hbm, 87, rfl⟩
abbrev main_v65 : Ref sig .tc := ⟨.hbm, 88, rfl⟩
abbrev main_v66 : Ref sig .tc := ⟨.hbm, 89, rfl⟩
abbrev main_c_13 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_14 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Spec.lean ====
/-
  What the two programs compute, as functions of whole arrays over the extended reals.

  A two-layer graph convolution: with `row`, `col` the two rows of the edge list, `deg = 1 + #{e | col e = ·}` and
  `dinv = deg^(-1/2)`, one layer sends `h` to `agg (h · W) + b`, where
  `agg y = scatter-add over col of (y[row] · dinv[row] · dinv[col]) + y · dinv²`, the first layer followed by `max · 0`.
  The edge-list arithmetic (the degree, the gathers and the scatter-add) is the same host text in both programs, so it is
  named here once and never opened: `row`, `col`, `dinv`, `agg128`, `agg64`. What differs between the programs is how
  `h · W` and `· + b` (and the `max`) are computed — block by block over ten row blocks in one, whole in the other —
  and those four are stated index by index: `lin128`, `lin64`, `biasRelu`, `biasAdd`.
-/
import proofs.«150881_j7198365188144_1_alg».proof.Proof.Gen.ReferenceIdeal
import Idealize.ShloMosaic.PureOps.Ideal
import Idealize.ShloMosaic.Lib.ValueIdx

noncomputable section

namespace Cert.Spec

open Idealize.ShloMosaic Idealize.ShloMosaic.ValueIdx Cert.ReferenceIdeal Cert.ReferenceIdeal.Facts₀
open scoped BigOperators

/-- A float array of shape `S` over the extended reals. -/
abbrev FArr (S : Shape) := (⟨S, .f32⟩ : BufTy).Contents (Elt Ideal)
/-- An integer array of shape `S`. -/
abbrev IArr (S : Shape) := (⟨S, .i32⟩ : BufTy).Contents (Elt Ideal)

/-- A vector of 128 entries is a `1 × 128` matrix with the same entries in the same order. -/
theorem rowOf128 : S128.ShapeCasts S1x128 := by decide
/-- A vector of 64 entries is a `1 × 64` matrix with the same entries in the same order. -/
theorem rowOf64 : S64.ShapeCasts S1x64 := by decide

/-! ## The edge list's arithmetic, shared by both programs -/

/-- The source node of every edge: row 0 of the edge list. -/
def row (e : IArr S2x1600000) : IArr S1600000 :=
  shapeCast _ (extractStridedSlice S1x1600000 ![0, 0] e slices_S2x1600000_S1x1600000_0_0) shapeCasts_S1x1600000_S1600000

/-- The target node of every edge: row 1 of the edge list. -/
def col (e : IArr S2x1600000) : IArr S1600000 :=
  shapeCast _ (extractStridedSlice S1x1600000 ![1, 0] e slices_S2x1600000_S1x1600000_1_0) shapeCasts_S1x1600000_S1600000

/-- `deg^(-1/2)`, the degree counting each node's incoming edges and one self-loop. -/
def dinv (e : IArr S2x1600000) : FArr S100000 :=
  Host.rsqrt (addf
    (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 (col e))
      (broadcastInDim S1600000 ![] bcast_S_S1600000 (constant (F := Ideal) S_ .f32 0x3F800000#32)))
    (broadcastInDim S100000 ![] bcast_S_S100000 (constant (F := Ideal) S_ .f32 0x3F800000#32)))

/-- A node index counted from the end when negative. -/
abbrev wrapIdx (v : IArr S1600000) : IArr S1600000 :=
  select (cmpi .slt v (broadcastInDim S1600000 ![] bcast_S_S1600000 (constantI S_ 32 0#32)))
    (addi v (broadcastInDim S1600000 ![] bcast_S_S1600000 (constantI S_ 32 100000#32))) v

/-- Each edge's weight `dinv[row] · dinv[col]`. -/
abbrev edgeNorm (dv : FArr S100000) (r c : IArr S1600000) : FArr S1600000 :=
  mulf (F := Ideal) (φ := .f32)
    (Host.gather gather_S100000_S1600000x1_S1600000_n_0_n_n_0_1_1 dv
      (broadcastInDim S1600000x1 ![0] bcast_S1600000_S1600000x1_0 (wrapIdx r)))
    (Host.gather gather_S100000_S1600000x1_S1600000_n_0_n_n_0_1_1 dv
      (broadcastInDim S1600000x1 ![0] bcast_S1600000_S1600000x1_0 (wrapIdx c)))

/-- The normalized neighbour sum with the self-loop term, on 128 features. -/
def agg128 (y : FArr S100000x128) (dv : FArr S100000) (r c : IArr S1600000) : FArr S100000x128 :=
  addf
    (Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 c)
      (mulf
        (Host.gather gather_S100000x128_S1600000x1_S1600000x128_1_0_n_n_0_1_1128 y
          (broadcastInDim S1600000x1 ![0] bcast_S1600000_S1600000x1_0 (wrapIdx r)))
        (broadcastInDim S1600000x128 ![0, 1] bcast_S1600000x1_S1600000x128_0_1
          (broadcastInDim S1600000x1 ![0] bcast_S1600000_S1600000x1_0 (edgeNorm dv r c)))))
    (mulf y
      (broadcastInDim S100000x128 ![0, 1] bcast_S100000x1_S100000x128_0_1
        (broadcastInDim S100000x1 ![0] bcast_S100000_S100000x1_0 (mulf dv dv))))

/-- The normalized neighbour sum with the self-loop term, on 64 features. -/
def agg64 (y : FArr S100000x64) (dv : FArr S100000) (r c : IArr S1600000) : FArr S100000x64 :=
  addf
    (Host.scatterAdd scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 c)
      (mulf
        (Host.gather gather_S100000x64_S1600000x1_S1600000x64_1_0_n_n_0_1_164 y
          (broadcastInDim S1600000x1 ![0] bcast_S1600000_S1600000x1_0 (wrapIdx r)))
        (broadcastInDim S1600000x64 ![0, 1] bcast_S1600000x1_S1600000x64_0_1
          (broadcastInDim S1600000x1 ![0] bcast_S1600000_S1600000x1_0 (edgeNorm dv r c)))))
    (mulf y
      (broadcastInDim S100000x64 ![0, 1] bcast_S100000x1_S100000x64_0_1
        (broadcastInDim S100000x1 ![0] bcast_S100000_S100000x1_0 (mulf dv dv))))

/-! ## The dense parts, index by index -/

/-- For the output entry `(n, j)` and the summation index `k`: the left factor's index `(n, k)`. -/
abbrev leftAt128 (i : S100000x128.Idx) (k : Fin 128) : S100000x128.Idx := fun a => match a with
  | ⟨0, _⟩ => ⟨(i 0).val, (i 0).isLt⟩
  | ⟨1, _⟩ => ⟨k.val, k.isLt⟩
/-- and the right factor's index `(k, j)`. -/
abbrev rightAt128 (i : S100000x128.Idx) (k : Fin 128) : S128x128.Idx := fun a => match a with
  | ⟨0, _⟩ => ⟨k.val, k.isLt⟩
  | ⟨1, _⟩ => ⟨(i 1).val, (i 1).isLt⟩
/-- The same for a product with 64 columns. -/
abbrev leftAt64 (i : S100000x64.Idx) (k : Fin 128) : S100000x128.Idx := fun a => match a with
  | ⟨0, _⟩ => ⟨(i 0).val, (i 0).isLt⟩
  | ⟨1, _⟩ => ⟨k.val, k.isLt⟩
abbrev rightAt64 (i : S100000x64.Idx) (k : Fin 128) : S128x64.Idx := fun a => match a with
  | ⟨0, _⟩ => ⟨k.val, k.isLt⟩
  | ⟨1, _⟩ => ⟨(i 1).val, (i 1).isLt⟩
/-- The bias row's entry under column `j` of the entry `(n, j)`. -/
abbrev biasAt128 (i : S100000x128.Idx) : S1x128.Idx := fun a => match a with
  | ⟨0, _⟩ => ⟨0, Nat.one_pos⟩
  | ⟨1, _⟩ => ⟨(i 1).val, (i 1).isLt⟩
abbrev biasAt64 (i : S100000x64.Idx) : S1x64.Idx := fun a => match a with
  | ⟨0, _⟩ => ⟨0, Nat.one_pos⟩
  | ⟨1, _⟩ => ⟨(i 1).val, (i 1).isLt⟩

/-- `X · W` for `W` of 128 columns: entry `(n, j)` is `∑ k, X (n, k) · W (k, j)`. -/
def lin128 (X : FArr S100000x128) (W : FArr S128x128) : FArr S100000x128 :=
  fun i => ∑ k : Fin 128, X (leftAt128 i k) * W (rightAt128 i k)

/-- `X · W` for `W` of 64 columns. -/
def lin64 (X : FArr S100000x128) (W : FArr S128x64) : FArr S100000x64 :=
  fun i => ∑ k : Fin 128, X (leftAt64 i k) * W (rightAt64 i k)

/-- The first layer's finish: the bias row added to every row, then the maximum with zero. -/
def biasRelu (A : FArr S100000x128) (b : FArr S1x128) : FArr S100000x128 :=
  fun i => max (A i + b (biasAt128 i)) (FloatOps.ofBits (F := Ideal) .f32 0x00000000#32)

/-- The second layer's finish: the bias row added to every row. -/
def biasAdd (A : FArr S100000x64) (b : FArr S1x64) : FArr S100000x64 :=
  fun i => A i + b (biasAt64 i)

/-- Both programs' result, of the six argument arrays. -/
def gcn (x : FArr S100000x128) (w1 : FArr S128x128) (b1 : FArr S128) (w2 : FArr S128x64) (b2 : FArr S64)
    (e : IArr S2x1600000) : FArr S100000x64 :=
  biasAdd
    (agg64
      (lin64
        (biasRelu (agg128 (lin128 x w1) (dinv e) (row e) (col e)) (shapeCast S1x128 b1 rowOf128))
        w2)
      (dinv e) (row e) (col e))
    (shapeCast S1x64 b2 rowOf64)

end Cert.Spec

end
-- ==== Proof.KernelChain.lean ====
/-
  The host stretches of the kernel's program, read as functions of whole arrays.

  Between the regions the program runs plain array operations. From any contents `Wv` of the buffers a stretch is
  entered with, the buffer it computes holds the named function (Spec) of the buffers it reads, and a buffer it does
  not write holds what it held.
-/
import proofs.«150881_j7198365188144_1_alg».proof.Proof.Gen.KernelIdeal.Frame
import proofs.«150881_j7198365188144_1_alg».proof.Proof.Spec
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen

variable (Wv : Valuation τ sig (Elt Ideal))

/-! ## Before the first region: the edge list's rows and the degree term -/

theorem pre_row : after (hostOps0 (F := Ideal)) Wv (Proc.devRef .tc main_v1)
    = Cert.Spec.row (Wv (Proc.devRef .tc main_arg5)) := by
  after_results
  rfl

theorem pre_col : after (hostOps0 (F := Ideal)) Wv (Proc.devRef .tc main_v3)
    = Cert.Spec.col (Wv (Proc.devRef .tc main_arg5)) := by
  after_results
  rfl

theorem pre_dinv : after (hostOps0 (F := Ideal)) Wv (Proc.devRef .tc main_v10)
    = Cert.Spec.dinv (Wv (Proc.devRef .tc main_arg5)) := by
  after_results
  rfl

theorem pre_arg0 : after (hostOps0 (F := Ideal)) Wv (Proc.devRef .tc main_arg0) = Wv (Proc.devRef .tc main_arg0) := by
  after_results
theorem pre_arg1 : after (hostOps0 (F := Ideal)) Wv (Proc.devRef .tc main_arg1) = Wv (Proc.devRef .tc main_arg1) := by
  after_results
theorem pre_arg2 : after (hostOps0 (F := Ideal)) Wv (Proc.devRef .tc main_arg2) = Wv (Proc.devRef .tc main_arg2) := by
  after_results
theorem pre_arg3 : after (hostOps0 (F := Ideal)) Wv (Proc.devRef .tc main_arg3) = Wv (Proc.devRef .tc main_arg3) := by
  after_results
theorem pre_arg4 : after (hostOps0 (F := Ideal)) Wv (Proc.devRef .tc main_arg4) = Wv (Proc.devRef .tc main_arg4) := by
  after_results

/-! ## Between the first product and the first finish: the neighbour sum on 128 features -/

theorem mid_agg : after (hostOps1 (F := Ideal)) Wv (Proc.devRef .tc main_v44)
    = Cert.Spec.agg128 (Wv (Proc.devRef .tc main_v11)) (Wv (Proc.devRef .tc main_v10))
        (Wv (Proc.devRef .tc main_v1)) (Wv (Proc.devRef .tc main_v3)) := by
  after_results_simp
  rfl

theorem mid_bias : after (hostOps1 (F := Ideal)) Wv (Proc.devRef .tc main_v45)
    = shapeCast S1x128 (Wv (Proc.devRef .tc main_arg2)) Cert.Spec.rowOf128 := by
  after_results_simp
  rfl

theorem mid_v1 : after (hostOps1 (F := Ideal)) Wv (Proc.devRef .tc main_v1) = Wv (Proc.devRef .tc main_v1) := by
  after_results_simp
theorem mid_v3 : after (hostOps1 (F := Ideal)) Wv (Proc.devRef .tc main_v3) = Wv (Proc.devRef .tc main_v3) := by
  after_results_simp
theorem mid_v10 : after (hostOps1 (F := Ideal)) Wv (Proc.devRef .tc main_v10) = Wv (Proc.devRef .tc main_v10) := by
  after_results_simp
theorem mid_arg3 : after (hostOps1 (F := Ideal)) Wv (Proc.devRef .tc main_arg3) = Wv (Proc.devRef .tc main_arg3) := by
  after_results_simp
theorem mid_arg4 : after (hostOps1 (F := Ideal)) Wv (Proc.devRef .tc main_arg4) = Wv (Proc.devRef .tc main_arg4) := by
  after_results_simp

/-! ## Between the second product and the second finish: the neighbour sum on 64 features -/

theorem post_agg : after (hostOps3 (F := Ideal)) Wv (Proc.devRef .tc main_v80)
    = Cert.Spec.agg64 (Wv (Proc.devRef .tc main_v47)) (Wv (Proc.devRef .tc main_v10))
        (Wv (Proc.devRef .tc main_v1)) (Wv (Proc.devRef .tc main_v3)) := by
  after_results_simp
  rfl

theorem post_bias : after (hostOps3 (F := Ideal)) Wv (Proc.devRef .tc main_v81)
    = shapeCast S1x64 (Wv (Proc.devRef .tc main_arg4)) Cert.Spec.rowOf64 := by
  after_results_simp
  rfl

end Cert.KernelIdeal.Chain

end
-- ==== Proof.Region0.lean ====
/-
  Region 0: ten row blocks of a matrix product.

  At grid point `t` the body multiplies rows `10000·t … 10000·t + 9999` of the left array by the whole right array
  (the format changes and the same-shape reshape before the product are the identity over the extended reals, and a product into a zero
  accumulator is the plain sum over the contracted axis), and writes the block back to the same rows of the output.
  The ten blocks tile the output's rows, so after the last point the output array is the whole product.
-/
import proofs.«150881_j7198365188144_1_alg».proof.Proof.Gen.KernelIdeal.Frame
import proofs.«150881_j7198365188144_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

/-! ## The block product, entry by entry -/

/-- Inside a block: for the entry `(r, j)` and the summation index `k`, the left factor's index `(r, k)`. -/
abbrev leftBlk (j : S10000x128.Idx) (k : Fin 128) : S10000x128.Idx := fun a => match a with
  | ⟨0, _⟩ => ⟨(j 0).val, (j 0).isLt⟩
  | ⟨1, _⟩ => ⟨k.val, k.isLt⟩
/-- and the right factor's index `(k, j)`. -/
abbrev rightBlk (j : S10000x128.Idx) (k : Fin 128) : S128x128.Idx := fun a => match a with
  | ⟨0, _⟩ => ⟨k.val, k.isLt⟩
  | ⟨1, _⟩ => ⟨(j 1).val, (j 1).isLt⟩

theorem lhs_dot_S10000x128_S128x128_S10000x128_1_0_0_1_n_n_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_dot_S10000x128_S128x128_S10000x128_1_0_0_1_n_n_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_dot_S10000x128_S128x128_S10000x128_1_0_0_1_n_n_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_dot_S10000x128_S128x128_S10000x128_1_0_0_1_n_n_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Entry `(r, j)` of what the body stores is `∑ k, x (r, k) · w (k, j)` of the two blocks it loaded. -/
theorem pay_apply (x0 : FVec Ideal S10000x128 .f32) (x1 : FVec Ideal S128x128 .f32) (j : S10000x128.Idx) :
    k0_pay1 x0 x1 j = ∑ k : Fin 128, x0 (leftBlk j k) * x1 (rightBlk j k) := by
  unfold k0_pay1
  refine (Ideal.matmul_constant_zero_apply dot_S10000x128_S128x128_S10000x128_1_0_0_1_n_n none _ _ j).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx j ((contrEquiv1 dot_S10000x128_S128x128_S10000x128_1_0_0_1_n_n 128 rfl rfl).symm k) = leftBlk j k := funext fun a => Fin.ext (by
    match a with
    | ⟨0, _⟩ => exact lhs_dot_S10000x128_S128x128_S10000x128_1_0_0_1_n_n_0 _ _
    | ⟨1, _⟩ => exact (lhs_dot_S10000x128_S128x128_S10000x128_1_0_0_1_n_n_1 _ _).trans hk)
  have er : dot_S10000x128_S128x128_S10000x128_1_0_0_1_n_n.rhsIdx j ((contrEquiv1 dot_S10000x128_S128x128_S10000x128_1_0_0_1_n_n 128 rfl rfl).symm k) = rightBlk j k := funext fun a => Fin.ext (by
    match a with
    | ⟨0, _⟩ => exact (rhs_dot_S10000x128_S128x128_S10000x128_1_0_0_1_n_n_0 _ _).trans hk
    | ⟨1, _⟩ => exact rhs_dot_S10000x128_S128x128_S10000x128_1_0_0_1_n_n_1 _ _)
  rw [el, er]
  simp only [truncf_apply, shapeCast_self]

/-! ## From the blocks to the array -/

theorem origin_zero : (![0, 0] : Fin 2 → Nat) = fun _ => 0 := funext fun a => by fin_cases a <;> rfl

/-- Where each window's block sits at grid point `t`: the left operand's and the output's at row block `t`, the right
    operand's always the whole array. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row block is some grid point's. -/
theorem block_onto : ∀ q : Fin 10, ∃ t : Fin cfg0.N, win0_2.index t = ![q.val, 0] :=
  (by decide +kernel : ∀ q : Fin 10, ∃ t : Fin grid0.N, win0_2.index t = ![q.val, 0])

/-- What grid point `t` writes back is block `t` of the whole product of the two arrays as the region finds them. -/
theorem flushed_eq (c : Dev nD) (t : Fin cfg0.N) :
    (dat0 V c).flushed 2 t
      = ((cfg0.win 2).blk t).view.read (Elt Ideal) (Cert.Spec.lin128 (V c main_arg0) (V c main_arg1)) := by
  show (cfg0.win 2).cut (grid0.coords t) ((dat0 V c).after 2 t) = _
  rw [after0_2]
  unfold out0_2
  rw [View.canon_unit_zero origin_zero]
  simp only [View.ld_unit_zero (S := S10000x128) origin_zero, View.ld_unit_zero (S := S128x128) origin_zero]
  obtain ⟨e00, e01, e10, e11, e20, e21⟩ := block_index t
  funext j
  show k0_pay1 (iblk0 V c 0 t) (iblk0 V c 1 t) j
    = Cert.Spec.lin128 (V c main_arg0) (V c main_arg1) (((cfg0.win 2).blk t).view.emb j)
  refine (pay_apply (iblk0 V c 0 t) (iblk0 V c 1 t) j).trans ?_
  unfold Cert.Spec.lin128
  refine Finset.sum_congr rfl fun k _ => ?_
  have hl : iblk0 V c 0 t (leftBlk j k)
      = V c main_arg0 (Cert.Spec.leftAt128 (((cfg0.win 2).blk t).view.emb j) k) := by
    show V c main_arg0 (((cfg0.win 0).blk t).view.emb (leftBlk j k)) = _
    refine congrArg (V c main_arg0) (funext fun a => Fin.ext ?_)
    match a with
    | ⟨0, _⟩ =>
      show win0_0.index t (0 : Fin 2) * 10000 + 1 * (j 0).val = win0_2.index t (0 : Fin 2) * 10000 + 1 * (j 0).val
      omega
    | ⟨1, _⟩ =>
      show win0_0.index t (1 : Fin 2) * 128 + 1 * k.val = k.val
      omega
  have hr : iblk0 V c 1 t (rightBlk j k)
      = V c main_arg1 (Cert.Spec.rightAt128 (((cfg0.win 2).blk t).view.emb j) k) := by
    show V c main_arg1 (((cfg0.win 1).blk t).view.emb (rightBlk j k)) = _
    refine congrArg (V c main_arg1) (funext fun a => Fin.ext ?_)
    match a with
    | ⟨0, _⟩ =>
      show win0_1.index t (0 : Fin 2) * 128 + 1 * k.val = k.val
      omega
    | ⟨1, _⟩ =>
      show win0_1.index t (1 : Fin 2) * 128 + 1 * (j 1).val = win0_2.index t (1 : Fin 2) * 128 + 1 * (j 1).val
      omega
  rw [hl, hr]

/-- An index of the output array is in point `t`'s block iff each coordinate is in the block's range on its axis. -/
theorem mem_block (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v11).slice (win0_2.rect t)).set ↔ _
  rw [View.set_slice_whole, Rect.mem_set_unit]
  exact Iff.rfl

/-- Row `n` of the output lies in the block of grid point `n / 10000`. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := block_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 128 ≤ (i 1).val ∧ (i 1).val < win0_2.index t (1 : Fin 2) * 128 + 128
    omega

/-- After the region the output array holds the whole product of the two input arrays as the region found them. -/
theorem final (c : Dev nD) :
    (dat0 V c).arrAt 2 cfg0.N = Cert.Spec.lin128 (V c main_arg0) (V c main_arg1) :=
  (dat0 V c).arrAt_eq_of_cover 2 _ (fun t _ => flushed_eq V c t) covered

end Cert.KernelIdeal.Region0

end
-- ==== Proof.Region1.lean ====
/-
  Region 1: the first layer's finish, ten row blocks at a time.

  At grid point `t` the body adds the bias row (the second operand's one row, repeated down the block) to rows
  `10000·t … 10000·t + 9999` of the first operand and takes the maximum with zero, entry by entry, and writes the block
  back to the same rows of the output. The ten blocks tile the output's rows.
-/
import proofs.«150881_j7198365188144_1_alg».proof.Proof.Gen.KernelIdeal.Frame
import proofs.«150881_j7198365188144_1_alg».proof.Proof.Spec
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## The block's entries -/

/-- Inside a block: the bias row's entry under column `j` of the entry `(r, j)`. -/
abbrev biasBlk (j : S10000x128.Idx) : S1x128.Idx := fun a => match a with
  | ⟨0, _⟩ => ⟨0, Nat.one_pos⟩
  | ⟨1, _⟩ => ⟨(j 1).val, (j 1).isLt⟩

/-- Entry `(r, j)` of what the body stores is `max (x (r, j) + b (0, j)) 0`. -/
theorem pay_apply (x0 : FVec Ideal S10000x128 .f32) (x1 : FVec Ideal S1x128 .f32) (j : S10000x128.Idx) :
    k1_pay1 x0 x1 j = max (x0 j + x1 (biasBlk j)) (FloatOps.ofBits (F := Ideal) .f32 0x00000000#32) := by
  have hb : broadcastTo S10000x128 x1 broadcasts_S1x128_S10000x128 j = x1 (biasBlk j) :=
    broadcastTo_apply x1 broadcasts_S1x128_S10000x128 j (biasBlk j) (fun a => match a with
      | ⟨0, _⟩ => by show 0 = if (1 : Nat) = 1 then 0 else (j 0).val; rw [if_pos rfl]
      | ⟨1, _⟩ => by show (j 1).val = if (128 : Nat) = 1 then 0 else (j 1).val; rw [if_neg (by decide)])
  unfold k1_pay1
  rw [shapeCast_self x0, shapeCast_self x1]
  show max (x0 j + broadcastTo S10000x128 x1 broadcasts_S1x128_S10000x128 j) (FloatOps.ofBits (F := Ideal) .f32 0x00000000#32) = _
  rw [hb]

/-! ## From the blocks to the array -/

theorem origin_zero : (![0, 0] : Fin 2 → Nat) = fun _ => 0 := funext fun a => by fin_cases a <;> rfl

/-- Where each window's block sits at grid point `t`: the first operand's and the output's at row block `t`, the bias
    row's always the whole array. -/
theorem block_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every row block is some grid point's. -/
theorem block_onto : ∀ q : Fin 10, ∃ t : Fin cfg1.N, win1_2.index t = ![q.val, 0] :=
  (by decide +kernel : ∀ q : Fin 10, ∃ t : Fin grid1.N, win1_2.index t = ![q.val, 0])

/-- What grid point `t` writes back is block `t` of the finished first layer of the two arrays as the region finds them. -/
theorem flushed_eq (c : Dev nD) (t : Fin cfg1.N) :
    (dat1 V c).flushed 2 t
      = ((cfg1.win 2).blk t).view.read (Elt Ideal) (Cert.Spec.biasRelu (V c main_v44) (V c main_v45)) := by
  show (cfg1.win 2).cut (grid1.coords t) ((dat1 V c).after 2 t) = _
  rw [after1_2]
  unfold out1_2
  rw [View.canon_unit_zero origin_zero]
  simp only [View.ld_unit_zero (S := S10000x128) origin_zero, View.ld_unit_zero (S := S1x128) origin_zero]
  obtain ⟨e00, e01, e10, e11, e20, e21⟩ := block_index t
  funext j
  show k1_pay1 (iblk1 V c 0 t) (iblk1 V c 1 t) j
    = Cert.Spec.biasRelu (V c main_v44) (V c main_v45) (((cfg1.win 2).blk t).view.emb j)
  refine (pay_apply (iblk1 V c 0 t) (iblk1 V c 1 t) j).trans ?_
  unfold Cert.Spec.biasRelu
  have hl : iblk1 V c 0 t j = V c main_v44 (((cfg1.win 2).blk t).view.emb j) := by
    show V c main_v44 (((cfg1.win 0).blk t).view.emb j) = _
    refine congrArg (V c main_v44) (funext fun a => Fin.ext ?_)
    match a with
    | ⟨0, _⟩ =>
      show win1_0.index t (0 : Fin 2) * 10000 + 1 * (j 0).val = win1_2.index t (0 : Fin 2) * 10000 + 1 * (j 0).val
      omega
    | ⟨1, _⟩ =>
      show win1_0.index t (1 : Fin 2) * 128 + 1 * (j 1).val = win1_2.index t (1 : Fin 2) * 128 + 1 * (j 1).val
      omega
  have hr : iblk1 V c 1 t (biasBlk j) = V c main_v45 (Cert.Spec.biasAt128 (((cfg1.win 2).blk t).view.emb j)) := by
    show V c main_v45 (((cfg1.win 1).blk t).view.emb (biasBlk j)) = _
    refine congrArg (V c main_v45) (funext fun a => Fin.ext ?_)
    match a with
    | ⟨0, _⟩ =>
      show win1_1.index t (0 : Fin 2) * 1 + 1 * 0 = 0
      omega
    | ⟨1, _⟩ =>
      show win1_1.index t (1 : Fin 2) * 128 + 1 * (j 1).val = win1_2.index t (1 : Fin 2) * 128 + 1 * (j 1).val
      omega
  rw [hl, hr]

/-- An index of the output array is in point `t`'s block iff each coordinate is in the block's range on its axis. -/
theorem mem_block (t : Fin cfg1.N) (i : S100000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v46).slice (win1_2.rect t)).set ↔ _
  rw [View.set_slice_whole, Rect.mem_set_unit]
  exact Iff.rfl

/-- Row `n` of the output lies in the block of grid point `n / 10000`. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := block_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 128 ≤ (i 1).val ∧ (i 1).val < win1_2.index t (1 : Fin 2) * 128 + 128
    omega

/-- After the region the output array holds the finished first layer of the two input arrays as the region found them. -/
theorem final (c : Dev nD) :
    (dat1 V c).arrAt 2 cfg1.N = Cert.Spec.biasRelu (V c main_v44) (V c main_v45) :=
  (dat1 V c).arrAt_eq_of_cover 2 _ (fun t _ => flushed_eq V c t) covered

end Cert.KernelIdeal.Region1

end
-- ==== Proof.Region2.lean ====
/-
  Region 2: ten row blocks of a matrix product.

  At grid point `t` the body multiplies rows `10000·t … 10000·t + 9999` of the left array by the whole right array
  (the format changes and the same-shape reshape before the product are the identity over the extended reals, and a product into a zero
  accumulator is the plain sum over the contracted axis), and writes the block back to the same rows of the output.
  The ten blocks tile the output's rows, so after the last point the output array is the whole product.
-/
import proofs.«150881_j7198365188144_1_alg».proof.Proof.Gen.KernelIdeal.Frame
import proofs.«150881_j7198365188144_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

/-! ## The block product, entry by entry -/

/-- Inside a block: for the entry `(r, j)` and the summation index `k`, the left factor's index `(r, k)`. -/
abbrev leftBlk (j : S10000x64.Idx) (k : Fin 128) : S10000x128.Idx := fun a => match a with
  | ⟨0, _⟩ => ⟨(j 0).val, (j 0).isLt⟩
  | ⟨1, _⟩ => ⟨k.val, k.isLt⟩
/-- and the right factor's index `(k, j)`. -/
abbrev rightBlk (j : S10000x64.Idx) (k : Fin 128) : S128x64.Idx := fun a => match a with
  | ⟨0, _⟩ => ⟨k.val, k.isLt⟩
  | ⟨1, _⟩ => ⟨(j 1).val, (j 1).isLt⟩

theorem lhs_dot_S10000x128_S128x64_S10000x64_1_0_0_1_n_n_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_dot_S10000x128_S128x64_S10000x64_1_0_0_1_n_n_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs_dot_S10000x128_S128x64_S10000x64_1_0_0_1_n_n_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs_dot_S10000x128_S128x64_S10000x64_1_0_0_1_n_n_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- Entry `(r, j)` of what the body stores is `∑ k, x (r, k) · w (k, j)` of the two blocks it loaded. -/
theorem pay_apply (x0 : FVec Ideal S10000x128 .f32) (x1 : FVec Ideal S128x64 .f32) (j : S10000x64.Idx) :
    k2_pay1 x0 x1 j = ∑ k : Fin 128, x0 (leftBlk j k) * x1 (rightBlk j k) := by
  unfold k2_pay1
  refine (Ideal.matmul_constant_zero_apply dot_S10000x128_S128x64_S10000x64_1_0_0_1_n_n none _ _ j).trans ?_
  rw [← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx j ((contrEquiv1 dot_S10000x128_S128x64_S10000x64_1_0_0_1_n_n 128 rfl rfl).symm k) = leftBlk j k := funext fun a => Fin.ext (by
    match a with
    | ⟨0, _⟩ => exact lhs_dot_S10000x128_S128x64_S10000x64_1_0_0_1_n_n_0 _ _
    | ⟨1, _⟩ => exact (lhs_dot_S10000x128_S128x64_S10000x64_1_0_0_1_n_n_1 _ _).trans hk)
  have er : dot_S10000x128_S128x64_S10000x64_1_0_0_1_n_n.rhsIdx j ((contrEquiv1 dot_S10000x128_S128x64_S10000x64_1_0_0_1_n_n 128 rfl rfl).symm k) = rightBlk j k := funext fun a => Fin.ext (by
    match a with
    | ⟨0, _⟩ => exact (rhs_dot_S10000x128_S128x64_S10000x64_1_0_0_1_n_n_0 _ _).trans hk
    | ⟨1, _⟩ => exact rhs_dot_S10000x128_S128x64_S10000x64_1_0_0_1_n_n_1 _ _)
  rw [el, er]
  simp only [truncf_apply, shapeCast_self]

/-! ## From the blocks to the array -/

theorem origin_zero : (![0, 0] : Fin 2 → Nat) = fun _ => 0 := funext fun a => by fin_cases a <;> rfl

/-- Where each window's block sits at grid point `t`: the left operand's and the output's at row block `t`, the right
    operand's always the whole array. -/
theorem block_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every row block is some grid point's. -/
theorem block_onto : ∀ q : Fin 10, ∃ t : Fin cfg2.N, win2_2.index t = ![q.val, 0] :=
  (by decide +kernel : ∀ q : Fin 10, ∃ t : Fin grid2.N, win2_2.index t = ![q.val, 0])

/-- What grid point `t` writes back is block `t` of the whole product of the two arrays as the region finds them. -/
theorem flushed_eq (c : Dev nD) (t : Fin cfg2.N) :
    (dat2 V c).flushed 2 t
      = ((cfg2.win 2).blk t).view.read (Elt Ideal) (Cert.Spec.lin64 (V c main_v46) (V c main_arg3)) := by
  show (cfg2.win 2).cut (grid2.coords t) ((dat2 V c).after 2 t) = _
  rw [after2_2]
  unfold out2_2
  rw [View.canon_unit_zero origin_zero]
  simp only [View.ld_unit_zero (S := S10000x128) origin_zero, View.ld_unit_zero (S := S128x64) origin_zero]
  obtain ⟨e00, e01, e10, e11, e20, e21⟩ := block_index t
  funext j
  show k2_pay1 (iblk2 V c 0 t) (iblk2 V c 1 t) j
    = Cert.Spec.lin64 (V c main_v46) (V c main_arg3) (((cfg2.win 2).blk t).view.emb j)
  refine (pay_apply (iblk2 V c 0 t) (iblk2 V c 1 t) j).trans ?_
  unfold Cert.Spec.lin64
  refine Finset.sum_congr rfl fun k _ => ?_
  have hl : iblk2 V c 0 t (leftBlk j k)
      = V c main_v46 (Cert.Spec.leftAt64 (((cfg2.win 2).blk t).view.emb j) k) := by
    show V c main_v46 (((cfg2.win 0).blk t).view.emb (leftBlk j k)) = _
    refine congrArg (V c main_v46) (funext fun a => Fin.ext ?_)
    match a with
    | ⟨0, _⟩ =>
      show win2_0.index t (0 : Fin 2) * 10000 + 1 * (j 0).val = win2_2.index t (0 : Fin 2) * 10000 + 1 * (j 0).val
      omega
    | ⟨1, _⟩ =>
      show win2_0.index t (1 : Fin 2) * 128 + 1 * k.val = k.val
      omega
  have hr : iblk2 V c 1 t (rightBlk j k)
      = V c main_arg3 (Cert.Spec.rightAt64 (((cfg2.win 2).blk t).view.emb j) k) := by
    show V c main_arg3 (((cfg2.win 1).blk t).view.emb (rightBlk j k)) = _
    refine congrArg (V c main_arg3) (funext fun a => Fin.ext ?_)
    match a with
    | ⟨0, _⟩ =>
      show win2_1.index t (0 : Fin 2) * 128 + 1 * k.val = k.val
      omega
    | ⟨1, _⟩ =>
      show win2_1.index t (1 : Fin 2) * 64 + 1 * (j 1).val = win2_2.index t (1 : Fin 2) * 64 + 1 * (j 1).val
      omega
  rw [hl, hr]

/-- An index of the output array is in point `t`'s block iff each coordinate is in the block's range on its axis. -/
theorem mem_block (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v47).slice (win2_2.rect t)).set ↔ _
  rw [View.set_slice_whole, Rect.mem_set_unit]
  exact Iff.rfl

/-- Row `n` of the output lies in the block of grid point `n / 10000`. -/
theorem covered (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := block_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_block]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 64 ≤ (i 1).val ∧ (i 1).val < win2_2.index t (1 : Fin 2) * 64 + 64
    omega

/-- After the region the output array holds the whole product of the two input arrays as the region found them. -/
theorem final (c : Dev nD) :
    (dat2 V c).arrAt 2 cfg2.N = Cert.Spec.lin64 (V c main_v46) (V c main_arg3) :=
  (dat2 V c).arrAt_eq_of_cover 2 _ (fun t _ => flushed_eq V c t) covered

end Cert.KernelIdeal.Region2

end
-- ==== Proof.Region3.lean ====
/-
  Region 3: the second layer's finish, ten row blocks at a time.

  At grid point `t` the body adds the bias row (the second operand's one row, repeated down the block) to rows
  `10000·t … 10000·t + 9999` of the first operand, entry by entry, and writes the block back to the same rows of the
  output. The ten blocks tile the output's rows.
-/
import proofs.«150881_j7198365188144_1_alg».proof.Proof.Gen.KernelIdeal.Frame
import proofs.«150881_j7198365188144_1_alg».proof.Proof.Spec
import Idealize.ShloMosaic.Lib.Pipeline.Value
import Idealize.ShloMosaic.Lib.ValueIdx

set_option maxRecDepth 16384

noncomputable section

namespace Cert.KernelIdeal.Region3

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## The block's entries -/

/-- Inside a block: the bias row's entry under column `j` of the entry `(r, j)`. -/
abbrev biasBlk (j : S10000x64.Idx) : S1x64.Idx := fun a => match a with
  | ⟨0, _⟩ => ⟨0, Nat.one_pos⟩
  | ⟨1, _⟩ => ⟨(j 1).val, (j 1).isLt⟩

/-- Entry `(r, j)` of what the body stores is `x (r, j) + b (0, j)`. -/
theorem pay_apply (x0 : FVec Ideal S10000x64 .f32) (x1 : FVec Ideal S1x64 .f32) (j : S10000x64.Idx) :
    k3_pay1 x0 x1 j = x0 j + x1 (biasBlk j) := by
  have hb : broadcastTo S10000x64 x1 broadcasts_S1x64_S10000x64 j = x1 (biasBlk j) :=
    broadcastTo_apply x1 broadcasts_S1x64_S10000x64 j (biasBlk j) (fun a => match a with
      | ⟨0, _⟩ => by show 0 = if (1 : Nat) = 1 then 0 else (j 0).val; rw [if_pos rfl]
      | ⟨1, _⟩ => by show (j 1).val = if (64 : Nat) = 1 then 0 else (j 1).val; rw [if_neg (by decide)])
  unfold k3_pay1
  rw [shapeCast_self x0, shapeCast_self x1]
  show x0 j + broadcastTo S10000x64 x1 broadcasts_S1x64_S10000x64 j = _
  rw [hb]

/-! ## From the blocks to the array -/

theorem origin_zero : (![0, 0] : Fin 2 → Nat) = fun _ => 0 := funext fun a => by fin_cases a <;> rfl

/-- Where each window's block sits at grid point `t`: the first operand's and the output's at row block `t`, the bias
    row's always the whole array. -/
theorem block_index : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Every row block is some grid point's. -/
theorem block_onto : ∀ q : Fin 10, ∃ t : Fin cfg3.N, win3_2.index t = ![q.val, 0] :=
  (by decide +kernel : ∀ q : Fin 10, ∃ t : Fin grid3.N, win3_2.index t = ![q.val, 0])

/-- What grid point `t` writes back is block `t` of the finished second layer of the two arrays as the region finds them. -/
theorem flushed_eq (c : Dev nD) (t : Fin cfg3.N) :
    (dat3 V c).flushed 2 t
      = ((cfg3.win 2).blk t).view.read (Elt Ideal) (Cert.Spec.biasAdd (V c main_v80) (V c main_v81)) := by
  show (cfg3.win 2).cut (grid3.coords t) ((dat3 V c).after 2 t) = _
  rw [after3_2]
  unfold out3_2
  rw [View.canon_unit_zero origin_zero]
  simp only [View.ld_unit_zero (S := S10000x64) origin_zero, View.ld_unit_zero (S := S1x64) origin_zero]
  obtain ⟨e00, e01, e10, e11, e20, e21⟩ := block_index t
  funext j
  show k3_pay1 (iblk3 V c 0 t) (iblk3 V c 1 t) j
    = Cert.Spec.biasAdd (V c main_v80) (V c main_v81) (((cfg3.win 2).blk t).view.emb j)
  refine (pay_apply (iblk3 V c 0 t) (iblk3 V c 1 t) j).trans ?_
  unfold Cert.Spec.biasAdd
  have hl : iblk3 V c 0 t j = V c main_v80 (((cfg3.win 2).blk t).view.emb j) := by
    show V c main_v80 (((cfg3.win 0).blk t).view.emb j) = _
    refine congrArg (V c main_v80) (funext fun a => Fin.ext ?_)
    match a with
    | ⟨0, _⟩ =>
      show win3_0.index t (0 : Fin 2) * 10000 + 1 * (j 0).val = win3_2.index t (0 : Fin 2) * 10000 + 1 * (j 0).val
      omega
    | ⟨1, _⟩ =>
      show win3_0.index t (1 : Fin 2) * 64 + 1 * (j 1).val = win3_2.index t (1 : Fin 2) * 64 + 1 * (j 1).val
      omega
  have hr : iblk3 V c 1 t (biasBlk j) = V c main_v81 (Cert.Spec.biasAt64 (((cfg3.win 2).blk t).view.emb j)) := by
    show V c main_v81 (((cfg3.win 1).blk t).view.emb (biasBlk j)) = _
    refine congrArg (V c main_v81) (funext fun a => Fin.ext ?_)
    match a with
    | ⟨0, _⟩ =>
      show win3_1.index t (0 : Fin 2) * 1 + 1 * 0 = 0
      omega
    | ⟨1, _⟩ =>
      show win3_1.index t (1 : Fin 2) * 64 + 1 * (j 1).val = win3_2.index t (1 : Fin 2) * 64 + 1 * (j 1).val
      omega
  rw [hl, hr]

/-- An index of the output array is in point `t`'s block iff each coordinate is in the block's range on its axis. -/
theorem mem_block (t : Fin cfg3.N) (i : S100000x64.Idx) :
    i ∈ ((cfg3.win 2).blk t).view.set ↔ ∀ a : Fin 2, win3_2.index t a * S10000x64.size a ≤ (i a).val
      ∧ (i a).val < win3_2.index t a * S10000x64.size a + S10000x64.size a := by
  show i ∈ ((View.whole main_v82).slice (win3_2.rect t)).set ↔ _
  rw [View.set_slice_whole, Rect.mem_set_unit]
  exact Iff.rfl

/-- Row `n` of the output lies in the block of grid point `n / 10000`. -/
theorem covered (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := block_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_block]
  intro a
  match a with
  | ⟨0, _⟩ =>
    show win3_2.index t (0 : Fin 2) * 10000 ≤ (i 0).val ∧ (i 0).val < win3_2.index t (0 : Fin 2) * 10000 + 10000
    omega
  | ⟨1, _⟩ =>
    show win3_2.index t (1 : Fin 2) * 64 ≤ (i 1).val ∧ (i 1).val < win3_2.index t (1 : Fin 2) * 64 + 64
    omega

/-- After the region the output array holds the finished second layer of the two input arrays as the region found them. -/
theorem final (c : Dev nD) :
    (dat3 V c).arrAt 2 cfg3.N = Cert.Spec.biasAdd (V c main_v80) (V c main_v81) :=
  (dat3 V c).arrAt_eq_of_cover 2 _ (fun t _ => flushed_eq V c t) covered

end Cert.KernelIdeal.Region3

end
-- ==== Proof.KernelValue.lean ====
/-
  The kernel's result is the Spec's function of the six argument arrays.

  The program's buffers are followed from the launch to the return, boundary by boundary: a host stretch leaves in
  the buffer it computes the Spec's named function of what it read and keeps the rest; a region leaves in its output
  array the whole-array function its ten blocks tile and keeps every buffer that is not one of its arrays. Carried
  along are the edge list's two rows and the degree term (computed once, read by both neighbour sums) and the
  arguments not yet read.
-/
import proofs.«150881_j7198365188144_1_alg».proof.Proof.Gen.KernelIdeal.Frame
import proofs.«150881_j7198365188144_1_alg».proof.Proof.Spec
import proofs.«150881_j7198365188144_1_alg».proof.Proof.KernelChain
import proofs.«150881_j7198365188144_1_alg».proof.Proof.Region0
import proofs.«150881_j7198365188144_1_alg».proof.Proof.Region1
import proofs.«150881_j7198365188144_1_alg».proof.Proof.Region2
import proofs.«150881_j7198365188144_1_alg».proof.Proof.Region3

set_option maxRecDepth 16384

noncomputable section

namespace Cert.KernelIdeal.Result

open Idealize.ShloMosaic Idealize.ShloMosaic.TcCoe Idealize.SL.Sem
open Cert.KernelIdeal Cert.KernelIdeal.Gen Cert.Spec

variable (m : (ℓ : Loc nD τ sig) → Buf (Elt Ideal) ℓ) (ρ : Dev nD → PrngReg) (c : Dev nD)

/-! ## At the first region's entry -/

theorem w1_row : W1 m ρ c (Proc.devRef .tc main_v1) = row (m ((c : Thread nD τ).loc main_arg5)) :=
  Chain.pre_row (W0 m ρ c)
theorem w1_col : W1 m ρ c (Proc.devRef .tc main_v3) = col (m ((c : Thread nD τ).loc main_arg5)) :=
  Chain.pre_col (W0 m ρ c)
theorem w1_dinv : W1 m ρ c (Proc.devRef .tc main_v10) = dinv (m ((c : Thread nD τ).loc main_arg5)) :=
  Chain.pre_dinv (W0 m ρ c)
theorem w1_arg0 : W1 m ρ c (Proc.devRef .tc main_arg0) = m ((c : Thread nD τ).loc main_arg0) := Chain.pre_arg0 (W0 m ρ c)
theorem w1_arg1 : W1 m ρ c (Proc.devRef .tc main_arg1) = m ((c : Thread nD τ).loc main_arg1) := Chain.pre_arg1 (W0 m ρ c)
theorem w1_arg2 : W1 m ρ c (Proc.devRef .tc main_arg2) = m ((c : Thread nD τ).loc main_arg2) := Chain.pre_arg2 (W0 m ρ c)
theorem w1_arg3 : W1 m ρ c (Proc.devRef .tc main_arg3) = m ((c : Thread nD τ).loc main_arg3) := Chain.pre_arg3 (W0 m ρ c)
theorem w1_arg4 : W1 m ρ c (Proc.devRef .tc main_arg4) = m ((c : Thread nD τ).loc main_arg4) := Chain.pre_arg4 (W0 m ρ c)

/-! ## After the first product -/

theorem w2_xw : W2 m ρ c (Proc.devRef .tc main_v11)
    = lin128 (m ((c : Thread nD τ).loc main_arg0)) (m ((c : Thread nD τ).loc main_arg1)) := by
  have h := (W2_arr m ρ c 2).trans (Region0.final (V1 m ρ) c)
  rw [show V1 m ρ c main_arg0 = _ from w1_arg0 m ρ c, show V1 m ρ c main_arg1 = _ from w1_arg1 m ρ c] at h
  exact h
theorem w2_row : W2 m ρ c (Proc.devRef .tc main_v1) = row (m ((c : Thread nD τ).loc main_arg5)) :=
  (W2_of_ne m ρ c main_v1 (by decide)).trans (w1_row m ρ c)
theorem w2_col : W2 m ρ c (Proc.devRef .tc main_v3) = col (m ((c : Thread nD τ).loc main_arg5)) :=
  (W2_of_ne m ρ c main_v3 (by decide)).trans (w1_col m ρ c)
theorem w2_dinv : W2 m ρ c (Proc.devRef .tc main_v10) = dinv (m ((c : Thread nD τ).loc main_arg5)) :=
  (W2_of_ne m ρ c main_v10 (by decide)).trans (w1_dinv m ρ c)
theorem w2_arg2 : W2 m ρ c (Proc.devRef .tc main_arg2) = m ((c : Thread nD τ).loc main_arg2) :=
  (W2_of_ne m ρ c main_arg2 (by decide)).trans (w1_arg2 m ρ c)
theorem w2_arg3 : W2 m ρ c (Proc.devRef .tc main_arg3) = m ((c : Thread nD τ).loc main_arg3) :=
  (W2_of_ne m ρ c main_arg3 (by decide)).trans (w1_arg3 m ρ c)
theorem w2_arg4 : W2 m ρ c (Proc.devRef .tc main_arg4) = m ((c : Thread nD τ).loc main_arg4) :=
  (W2_of_ne m ρ c main_arg4 (by decide)).trans (w1_arg4 m ρ c)

/-! ## At the first finish's entry -/

/-- The first layer before its bias: the neighbour sum of the first product. -/
abbrev pre1 (x : FArr S100000x128) (w1 : FArr S128x128) (e : IArr S2x1600000) : FArr S100000x128 :=
  agg128 (lin128 x w1) (dinv e) (row e) (col e)

theorem w3_agg : W3 m ρ c (Proc.devRef .tc main_v44)
    = pre1 (m ((c : Thread nD τ).loc main_arg0)) (m ((c : Thread nD τ).loc main_arg1)) (m ((c : Thread nD τ).loc main_arg5)) := by
  have h := Chain.mid_agg (W2 m ρ c)
  rw [w2_xw m ρ c, w2_dinv m ρ c, w2_row m ρ c, w2_col m ρ c] at h
  exact h
theorem w3_bias : W3 m ρ c (Proc.devRef .tc main_v45)
    = shapeCast S1x128 (m ((c : Thread nD τ).loc main_arg2)) rowOf128 := by
  have h := Chain.mid_bias (W2 m ρ c)
  rw [w2_arg2 m ρ c] at h
  exact h
theorem w3_row : W3 m ρ c (Proc.devRef .tc main_v1) = row (m ((c : Thread nD τ).loc main_arg5)) :=
  (Chain.mid_v1 (W2 m ρ c)).trans (w2_row m ρ c)
theorem w3_col : W3 m ρ c (Proc.devRef .tc main_v3) = col (m ((c : Thread nD τ).loc main_arg5)) :=
  (Chain.mid_v3 (W2 m ρ c)).trans (w2_col m ρ c)
theorem w3_dinv : W3 m ρ c (Proc.devRef .tc main_v10) = dinv (m ((c : Thread nD τ).loc main_arg5)) :=
  (Chain.mid_v10 (W2 m ρ c)).trans (w2_dinv m ρ c)
theorem w3_arg3 : W3 m ρ c (Proc.devRef .tc main_arg3) = m ((c : Thread nD τ).loc main_arg3) :=
  (Chain.mid_arg3 (W2 m ρ c)).trans (w2_arg3 m ρ c)
theorem w3_arg4 : W3 m ρ c (Proc.devRef .tc main_arg4) = m ((c : Thread nD τ).loc main_arg4) :=
  (Chain.mid_arg4 (W2 m ρ c)).trans (w2_arg4 m ρ c)

/-! ## After the first finish -/

/-- The first layer: bias added, maximum with zero taken. -/
abbrev layer1 (x : FArr S100000x128) (w1 : FArr S128x128) (b1 : FArr S128) (e : IArr S2x1600000) : FArr S100000x128 :=
  biasRelu (pre1 x w1 e) (shapeCast S1x128 b1 rowOf128)

theorem w4_h : W4 m ρ c (Proc.devRef .tc main_v46)
    = layer1 (m ((c : Thread nD τ).loc main_arg0)) (m ((c : Thread nD τ).loc main_arg1)) (m ((c : Thread nD τ).loc main_arg2))
        (m ((c : Thread nD τ).loc main_arg5)) := by
  have h := (W4_arr m ρ c 2).trans (Region1.final (V3 m ρ) c)
  rw [show V3 m ρ c main_v44 = _ from w3_agg m ρ c, show V3 m ρ c main_v45 = _ from w3_bias m ρ c] at h
  exact h
theorem w4_row : W4 m ρ c (Proc.devRef .tc main_v1) = row (m ((c : Thread nD τ).loc main_arg5)) :=
  (W4_of_ne m ρ c main_v1 (by decide)).trans (w3_row m ρ c)
theorem w4_col : W4 m ρ c (Proc.devRef .tc main_v3) = col (m ((c : Thread nD τ).loc main_arg5)) :=
  (W4_of_ne m ρ c main_v3 (by decide)).trans (w3_col m ρ c)
theorem w4_dinv : W4 m ρ c (Proc.devRef .tc main_v10) = dinv (m ((c : Thread nD τ).loc main_arg5)) :=
  (W4_of_ne m ρ c main_v10 (by decide)).trans (w3_dinv m ρ c)
theorem w4_arg3 : W4 m ρ c (Proc.devRef .tc main_arg3) = m ((c : Thread nD τ).loc main_arg3) :=
  (W4_of_ne m ρ c main_arg3 (by decide)).trans (w3_arg3 m ρ c)
theorem w4_arg4 : W4 m ρ c (Proc.devRef .tc main_arg4) = m ((c : Thread nD τ).loc main_arg4) :=
  (W4_of_ne m ρ c main_arg4 (by decide)).trans (w3_arg4 m ρ c)

/-! ## After the second product -/

theorem w5_xw : W5 m ρ c (Proc.devRef .tc main_v47)
    = lin64 (layer1 (m ((c : Thread nD τ).loc main_arg0)) (m ((c : Thread nD τ).loc main_arg1))
        (m ((c : Thread nD τ).loc main_arg2)) (m ((c : Thread nD τ).loc main_arg5))) (m ((c : Thread nD τ).loc main_arg3)) := by
  have h := (W5_arr m ρ c 2).trans (Region2.final (V4 m ρ) c)
  rw [show V4 m ρ c main_v46 = _ from w4_h m ρ c, show V4 m ρ c main_arg3 = _ from w4_arg3 m ρ c] at h
  exact h
theorem w5_row : W5 m ρ c (Proc.devRef .tc main_v1) = row (m ((c : Thread nD τ).loc main_arg5)) :=
  (W5_of_ne m ρ c main_v1 (by decide)).trans (w4_row m ρ c)
theorem w5_col : W5 m ρ c (Proc.devRef .tc main_v3) = col (m ((c : Thread nD τ).loc main_arg5)) :=
  (W5_of_ne m ρ c main_v3 (by decide)).trans (w4_col m ρ c)
theorem w5_dinv : W5 m ρ c (Proc.devRef .tc main_v10) = dinv (m ((c : Thread nD τ).loc main_arg5)) :=
  (W5_of_ne m ρ c main_v10 (by decide)).trans (w4_dinv m ρ c)
theorem w5_arg4 : W5 m ρ c (Proc.devRef .tc main_arg4) = m ((c : Thread nD τ).loc main_arg4) :=
  (W5_of_ne m ρ c main_arg4 (by decide)).trans (w4_arg4 m ρ c)

/-! ## At the second finish's entry, and the return -/

theorem w6_agg : W6 m ρ c (Proc.devRef .tc main_v80)
    = agg64 (lin64 (layer1 (m ((c : Thread nD τ).loc main_arg0)) (m ((c : Thread nD τ).loc main_arg1))
        (m ((c : Thread nD τ).loc main_arg2)) (m ((c : Thread nD τ).loc main_arg5))) (m ((c : Thread nD τ).loc main_arg3)))
      (dinv (m ((c : Thread nD τ).loc main_arg5))) (row (m ((c : Thread nD τ).loc main_arg5)))
      (col (m ((c : Thread nD τ).loc main_arg5))) := by
  have h := Chain.post_agg (W5 m ρ c)
  rw [w5_xw m ρ c, w5_dinv m ρ c, w5_row m ρ c, w5_col m ρ c] at h
  exact h
theorem w6_bias : W6 m ρ c (Proc.devRef .tc main_v81)
    = shapeCast S1x64 (m ((c : Thread nD τ).loc main_arg4)) rowOf64 := by
  have h := Chain.post_bias (W5 m ρ c)
  rw [w5_arg4 m ρ c] at h
  exact h

/-- The result array at the return is the Spec's function of the six arguments as launched. -/
theorem w7_out : W7 m ρ c (Proc.devRef .tc main_v82)
    = gcn (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  have h := (W7_arr m ρ c 2).trans (Region3.final (V6 m ρ) c)
  rw [show V6 m ρ c main_v80 = _ from w6_agg m ρ c, show V6 m ρ c main_v81 = _ from w6_bias m ρ c] at h
  exact h

end Cert.KernelIdeal.Result

end
-- ==== Proof.RefSide.lean ====
/-
  The reference's result is the Spec's function of the six argument arrays.

  The reference's operations, one at a time (the generated stages `val_main_vN`), are grouped into the Spec's pieces:
  the edge list's rows and the degree term, the product of the features with the first weights, the neighbour sum,
  the bias and the maximum with zero, the product with the second weights, the second neighbour sum and the second
  bias. The edge-list arithmetic is the Spec's by unfolding names only; the products are the Spec's sums by the
  stages' own reading at an index; a bias reaches an entry through two broadcasts in the reference and through a
  `1 × F` reshape in the Spec, and both read the bias vector at the entry's column.
-/
import proofs.«150881_j7198365188144_1_alg».proof.Proof.Gen.ReferenceIdeal.Run
import proofs.«150881_j7198365188144_1_alg».proof.Proof.Gen.ReferenceIdeal.Read
import proofs.«150881_j7198365188144_1_alg».proof.Proof.Spec
import Idealize.ShloMosaic.Lib.Pipeline.Value
import Idealize.ShloMosaic.Lib.ValueIdx

noncomputable section

namespace Cert.ReferenceIdeal.RefSide

open Idealize.ShloMosaic Idealize.ShloMosaic.ValueIdx
open Cert.ReferenceIdeal Cert.ReferenceIdeal.Read Cert.Spec
open scoped BigOperators

variable (x0 : FArr S100000x128) (x1 : FArr S128x128) (x2 : FArr S128) (x3 : FArr S128x64) (x4 : FArr S64)
  (x5 : IArr S2x1600000)

/-! ## The edge list's arithmetic -/

theorem row_eq : val_main_v1 (F := Ideal) x5 = row x5 := rfl
theorem col_eq : val_main_v3 (F := Ideal) x5 = col x5 := rfl
theorem dinv_eq : val_main_v10 (F := Ideal) x5 = dinv x5 := rfl

/-- The first neighbour sum, of the first product, the degree term and the edge list's rows. -/
theorem agg1_eq : val_main_v44 (F := Ideal) x0 x1 x5
    = agg128 (val_main_v11 (F := Ideal) x0 x1) (val_main_v10 (F := Ideal) x5) (val_main_v1 (F := Ideal) x5)
        (val_main_v3 (F := Ideal) x5) := rfl

/-- The second neighbour sum, of the second product, the degree term and the edge list's rows. -/
theorem agg2_eq : val_main_v82 (F := Ideal) x0 x1 x2 x3 x5
    = agg64 (val_main_v49 (F := Ideal) x0 x1 x2 x3 x5) (val_main_v10 (F := Ideal) x5) (val_main_v1 (F := Ideal) x5)
        (val_main_v3 (F := Ideal) x5) := rfl

/-! ## The two products -/

theorem dot1_eq : val_main_v11 (F := Ideal) x0 x1 = lin128 x0 x1 := by
  funext i
  rw [val_main_v11_apply]
  unfold lin128
  refine Finset.sum_congr rfl fun k _ => ?_
  have hl : lidx_main_v11 i k = leftAt128 i k := funext fun a => by
    match a with
    | ⟨0, _⟩ => rfl
    | ⟨1, _⟩ => rfl
  have hr : ridx_main_v11 i k = rightAt128 i k := funext fun a => by
    match a with
    | ⟨0, _⟩ => rfl
    | ⟨1, _⟩ => rfl
  rw [hl, hr]

theorem dot2_eq : val_main_v49 (F := Ideal) x0 x1 x2 x3 x5 = lin64 (val_main_v48 (F := Ideal) x0 x1 x2 x5) x3 := by
  funext i
  rw [val_main_v49_apply]
  unfold lin64
  refine Finset.sum_congr rfl fun k _ => ?_
  have hl : lidx_main_v49 i k = leftAt64 i k := funext fun a => by
    match a with
    | ⟨0, _⟩ => rfl
    | ⟨1, _⟩ => rfl
  have hr : ridx_main_v49 i k = rightAt64 i k := funext fun a => by
    match a with
    | ⟨0, _⟩ => rfl
    | ⟨1, _⟩ => rfl
  rw [hl, hr]

/-! ## The two finishes -/

/-- The bias vector as a `1 × 128` row, read under column `j`, is the vector's entry `j`. -/
theorem bias1_at (i : S100000x128.Idx) :
    shapeCast S1x128 x2 rowOf128 (biasAt128 i) = x2 (idx_main_v45 (idx_main_v46 i)) :=
  shapeCast_apply x2 rowOf128 (biasAt128 i) (idx_main_v45 (idx_main_v46 i)) (by
    rw [Shape.rowMajor_val_two, Shape.rowMajor_val_one]
    show (i 1).val = 0 * 128 + (i 1).val
    omega)

theorem bias1_eq : val_main_v48 (F := Ideal) x0 x1 x2 x5
    = biasRelu (val_main_v44 (F := Ideal) x0 x1 x5) (shapeCast S1x128 x2 rowOf128) := by
  funext i
  rw [val_main_v48_apply, val_main_v47_apply, val_main_v46_apply, val_main_v45_apply, val_main_call0_v0_apply,
    val_main_call0_cst_apply]
  unfold biasRelu
  rw [bias1_at]
  rfl

/-- The bias vector as a `1 × 64` row, read under column `j`, is the vector's entry `j`. -/
theorem bias2_at (i : S100000x64.Idx) :
    shapeCast S1x64 x4 rowOf64 (biasAt64 i) = x4 (idx_main_v83 (idx_main_v84 i)) :=
  shapeCast_apply x4 rowOf64 (biasAt64 i) (idx_main_v83 (idx_main_v84 i)) (by
    rw [Shape.rowMajor_val_two, Shape.rowMajor_val_one]
    show (i 1).val = 0 * 64 + (i 1).val
    omega)

theorem bias2_eq : val_main_v85 (F := Ideal) x0 x1 x2 x3 x4 x5
    = biasAdd (val_main_v82 (F := Ideal) x0 x1 x2 x3 x5) (shapeCast S1x64 x4 rowOf64) := by
  funext i
  rw [val_main_v85_apply, val_main_v84_apply, val_main_v83_apply]
  unfold biasAdd
  rw [bias2_at]
  rfl

/-! ## The whole -/

/-- The reference's last stage is the Spec's function of the six arguments. -/
theorem result_eq : val_main_v85 (F := Ideal) x0 x1 x2 x3 x4 x5 = gcn x0 x1 x2 x3 x4 x5 := by
  rw [bias2_eq, agg2_eq, dot2_eq, bias1_eq, agg1_eq, dot1_eq, dinv_eq, row_eq, col_eq]
  rfl

end Cert.ReferenceIdeal.RefSide

end
-- ==== Proof.lean ====
/-
  A two-layer graph convolution, computed two ways, gives one result over the extended reals.

  With `row`, `col` the two rows of the edge list, `deg = 1 + #{e | col e = ·}` and `dinv = deg^(-1/2)`, one layer
  sends `h` to `agg (h · W) + b`, where `agg y = scatter-add over col of (y[row] · dinv[row] · dinv[col]) + y · dinv²`;
  the first layer is followed by the maximum with zero. The reference computes every step on whole arrays. The kernel
  computes the two products `h · W` and the two `· + b` (with the maximum) in ten row blocks of 10000 rows each, and
  the edge-list arithmetic between them by the very same whole-array operations as the reference.

  Over the extended reals the format changes in front of the kernel's products are the identity and a product into a
  zero accumulator is the plain sum over the contracted axis, so each block of a product is the block of the whole
  product; the bias row read under an entry's column is the bias vector's entry at that column, whether it got there
  through a `1 × F` reshape and a row broadcast or through two broadcasts; and ten blocks of 10000 rows tile the
  100000 rows. No law of arithmetic beyond these readings is used, so no entry needs to be finite.

  Spec.lean states the common function `gcn`; Region0 … Region3 show each of the kernel's four block computations
  leaves its whole-array function; KernelChain reads the whole-array stretches between them; KernelValue follows the
  result through the program; KernelRun is the kernel's run with the result array named; RefSide reads the reference.
-/
import proofs.«150881_j7198365188144_1_alg».proof.Defs
import proofs.«150881_j7198365188144_1_alg».proof.Proof.Gen.Kernel
import proofs.«150881_j7198365188144_1_alg».proof.Proof.Gen.Kernel.Skeleton
import proofs.«150881_j7198365188144_1_alg».proof.Proof.Gen.Kernel.Launch
import proofs.«150881_j7198365188144_1_alg».proof.Proof.Gen.Kernel.Points
import proofs.«150881_j7198365188144_1_alg».proof.Proof.Gen.Kernel.Frame
import proofs.«150881_j7198365188144_1_alg».proof.Proof.Gen.KernelIdeal
import proofs.«150881_j7198365188144_1_alg».proof.Proof.Gen.KernelIdeal.Skeleton
import proofs.«150881_j7198365188144_1_alg».proof.Proof.Gen.KernelIdeal.Launch
import proofs.«150881_j7198365188144_1_alg».proof.Proof.Gen.KernelIdeal.Points
import proofs.«150881_j7198365188144_1_alg».proof.Proof.Gen.KernelIdeal.Frame
import proofs.«150881_j7198365188144_1_alg».proof.Proof.Gen.ReferenceIdeal
import proofs.«150881_j7198365188144_1_alg».proof.Proof.Gen.ReferenceIdeal.Run
import proofs.«150881_j7198365188144_1_alg».proof.Proof.Gen.ReferenceIdeal.Read
import proofs.«150881_j7198365188144_1_alg».proof.Proof.Gen.Pre_finite_inputs
import proofs.«150881_j7198365188144_1_alg».proof.Proof.Spec
import proofs.«150881_j7198365188144_1_alg».proof.Proof.KernelRun
import proofs.«150881_j7198365188144_1_alg».proof.Proof.KernelValue
import proofs.«150881_j7198365188144_1_alg».proof.Proof.RefSide
import Idealize.ShloMosaic.Adequacy
import Idealize.ShloMosaic.Init

noncomputable section

namespace Cert.Proof

open Idealize.ShloMosaic Idealize.SL.Sem

/-- The kernel as printed runs to the end and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten in reading the kernel over the extended reals. -/
theorem preserves : Cert.preserves_Kernel_KernelIdeal := trivial

/-- From memories that agree on the six arguments both programs end with the result array at `gcn` of the arguments. -/
theorem algebraic : Cert.algebraic_KernelIdeal_ReferenceIdeal := by
  intro m ρ m' ρ' _ hagree
  refine ⟨fun c => Cert.Spec.gcn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Result.w7_out m ρ c), (h c).2⟩)
      (Cert.KernelIdeal.ResultRun.run_result m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v85_eq, Cert.ReferenceIdeal.RefSide.result_eq,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
